-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x512 : Shape := ⟨3, ![8, 256, 512]⟩
abbrev S8x64x512 : Shape := ⟨3, ![8, 64, 512]⟩
abbrev S1024x512 : Shape := ⟨2, ![1024, 512]⟩
abbrev S1024 : Shape := ⟨1, ![1024]⟩
abbrev S_ : Shape := ⟨0, ![]⟩

class Facts : Prop where
  bcast_S_S8x256x512 : S_.BroadcastsInDim S8x256x512 (![] : Fin 0 → Fin S8x256x512.rank)
  reducesTo_S8x256x512_S_d0_1_2 : S8x256x512.ReducesTo [0, 1, 2] S_
  h_S_ : 0 < S_.numel
  bcast_S_S8x64x512 : S_.BroadcastsInDim S8x64x512 (![] : Fin 0 → Fin S8x64x512.rank)
  reducesTo_S8x64x512_S_d0_1_2 : S8x64x512.ReducesTo [0, 1, 2] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S8x256x512 .f32) (main_arg1 : FVec F S8x64x512 .f32) (main_arg2 : FVec F S1024x512 .f32) (main_arg3 : FVec F S1024 .f32) : IVec S_ 1 :=
  let main_v0 : FVec F S8x256x512 .f32 := Host.absf main_arg0
  let main_cst : FVec F S_ .f32 := constant S_ .f32 0x7F800000#32
  let main_v1 : FVec F S8x256x512 .f32 := broadcastInDim S8x256x512 ![] bcast_S_S8x256x512 main_cst
  let main_v2 : IVec S8x256x512 1 := cmpf .olt main_v0 main_v1
  let main_c : IVec S_ 1 := constantI S_ 1 1#1
  let main_v3 : IVec S_ 1 := (fun x v => Host.reduce IntOp.andi x v reducesTo_S8x256x512_S_d0_1_2 h_S_) main_v2 main_c
  let main_v4 : FVec F S8x64x512 .f32 := Host.absf main_arg1
  let main_cst_0 : FVec F S_ .f32 := constant S_ .f32 0x7F800000#32
  let main_v5 : FVec F S8x64x512 .f32 := broadcastInDim S8x64x512 ![] bcast_S_S8x64x512 main_cst_0
  let main_v6 : IVec S8x64x512 1 := cmpf .olt main_v4 main_v5
  let main_c_1 : IVec S_ 1 := constantI S_ 1 1#1
  let main_v7 : IVec S_ 1 := (fun x v => Host.reduce IntOp.andi x v reducesTo_S8x64x512_S_d0_1_2 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S8x256x512 : Shape := ⟨3, ![8, 256, 512]⟩
abbrev S8x64x512 : Shape := ⟨3, ![8, 64, 512]⟩
abbrev S1024x512 : Shape := ⟨2, ![1024, 512]⟩
abbrev S1024 : Shape := ⟨1, ![1024]⟩
abbrev S512x1024 : Shape := ⟨2, ![512, 1024]⟩
abbrev S1x1024 : Shape := ⟨2, ![1, 1024]⟩
abbrev S8x256x64x1024 : Shape := ⟨4, ![8, 256, 64, 1024]⟩
abbrev S1x16x512 : Shape := ⟨3, ![1, 16, 512]⟩
abbrev S1x64x512 : Shape := ⟨3, ![1, 64, 512]⟩
abbrev S1x16x64x1024 : Shape := ⟨4, ![1, 16, 64, 1024]⟩
abbrev S16x512 : Shape := ⟨2, ![16, 512]⟩
abbrev S64x512 : Shape := ⟨2, ![64, 512]⟩
abbrev S16x1x512 : Shape := ⟨3, ![16, 1, 512]⟩
abbrev S16x64x512 : Shape := ⟨3, ![16, 64, 512]⟩
abbrev S1024x1024 : Shape := ⟨2, ![1024, 1024]⟩
abbrev S16x64x1024 : Shape := ⟨3, ![16, 64, 1024]⟩
abbrev S1x1x1024 : Shape := ⟨3, ![1, 1, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x256x512, .f32⟩
  | .hbm, ⟨1, _⟩ => ⟨S8x64x512, .f32⟩
  | .hbm, ⟨2, _⟩ => ⟨S1024x512, .f32⟩
  | .hbm, ⟨3, _⟩ => ⟨S1024, .f32⟩
  | .hbm, ⟨4, _⟩ => ⟨S512x1024, .f32⟩
  | .hbm, ⟨5, _⟩ => ⟨S512x1024, .bf16⟩
  | .hbm, ⟨6, _⟩ => ⟨S1x1024, .f32⟩
  | .hbm, ⟨7, _⟩ => ⟨S8x256x64x1024, .f32⟩
  | .local _ .vmem, ⟨0, _⟩ => ⟨S1x16x512, .f32⟩
  | .local _ .vmem, ⟨1, _⟩ => ⟨S1x16x512, .f32⟩
  | .local _ .vmem, ⟨2, _⟩ => ⟨S1x64x512, .f32⟩
  | .local _ .vmem, ⟨3, _⟩ => ⟨S1x64x512, .f32⟩
  | .local _ .vmem, ⟨4, _⟩ => ⟨S512x1024, .bf16⟩
  | .local _ .vmem, ⟨5, _⟩ => ⟨S1x1024, .f32⟩
  | .local _ .vmem, ⟨6, _⟩ => ⟨S1x16x64x1024, .f32⟩
  | .local _ .vmem, ⟨7, _⟩ => ⟨S1x16x64x1024, .f32⟩
  | _, _ => ⟨S8x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x16x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S1024x512_S512x1024_1_0 : S1024x512.Transposes [1, 0] S512x1024
  bitsLt_bf16_f32 : FTy.bits .bf16 < FTy.bits .f32
  shapeCasts_S1024_S1x1024 : S1024.ShapeCasts S1x1024
  inb_S1x16x512_S1x16x512_0_0_0 : ∀ a, (![0, 0, 0] : Fin 3 → Nat) a + S1x16x512.size a ≤ S1x16x512.size a
  h_S1x16x512 : 0 < S1x16x512.numel
  shapeCasts_S1x16x512_S16x512 : S1x16x512.ShapeCasts S16x512
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  shapeCasts_S16x512_S16x1x512 : S16x512.ShapeCasts S16x1x512
  shapeCasts_S64x512_S1x64x512 : S64x512.ShapeCasts S1x64x512
  broadcasts_S16x1x512_S16x64x512 : S16x1x512.Broadcasts S16x64x512
  broadcasts_S1x64x512_S16x64x512 : S1x64x512.Broadcasts S16x64x512
  shapeCasts_S16x64x512_S1024x512 : S16x64x512.ShapeCasts S1024x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S1024x1024_S16x64x1024 : S1024x1024.ShapeCasts S16x64x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  shapeCasts_S1x1024_S1024 : S1x1024.ShapeCasts S1024
  shapeCasts_S1024_S1x1x1024 : S1024.ShapeCasts S1x1x1024
  broadcasts_S1x1x1024_S16x64x1024 : S1x1x1024.Broadcasts S16x64x1024
  inb_S1x16x64x1024_S1x16x64x1024_0_0_0_0 : ∀ a, (![0, 0, 0, 0] : Fin 4 → Nat) a + S1x16x64x1024.size a ≤ S1x16x64x1024.size a
  h_S1x16x64x1024 : 0 < S1x16x64x1024.numel
  shapeCasts_S1x16x64x1024_S16x64x1024 : S1x16x64x1024.ShapeCasts S16x64x1024
  shapeCasts_S16x64x1024_S1x16x64x1024 : S16x64x1024.ShapeCasts S1x16x64x1024
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x512.size a ≤ S8x256x512.size a
  hwx0_0 : ∀ i : grid0.Coords, EltTy.bits .f32 = 32 ∨ (Rect.block (s := S8x256x512) S1x16x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x512.size a ≤ S8x64x512.size a
  hwx0_1 : ∀ i : grid0.Coords, EltTy.bits .f32 = 32 ∨ (Rect.block (s := S8x64x512) S1x64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .bf16 = 32 ∨ (Rect.block (s := S512x1024) S512x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x64x1024.size a ≤ S8x256x64x1024.size a
  hwx0_4 : ∀ i : grid0.Coords, EltTy.bits .f32 = 32 ∨ (Rect.block (s := S8x256x64x1024) S1x16x64x1024.size (cc0_transform_4 i) (hinb0_4 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1x16x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x16x64x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x256x512 : Shape := ⟨3, ![8, 256, 512]⟩
abbrev S8x64x512 : Shape := ⟨3, ![8, 64, 512]⟩
abbrev S1024x512 : Shape := ⟨2, ![1024, 512]⟩
abbrev S1024 : Shape := ⟨1, ![1024]⟩
abbrev S8x256x1x512 : Shape := ⟨4, ![8, 256, 1, 512]⟩
abbrev S8x1x64x512 : Shape := ⟨4, ![8, 1, 64, 512]⟩
abbrev S8x256x64x512 : Shape := ⟨4, ![8, 256, 64, 512]⟩
abbrev S8x256x64x1024 : Shape := ⟨4, ![8, 256, 64, 1024]⟩
abbrev S1x1x1x1024 : Shape := ⟨4, ![1, 1, 1, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8x256x512, .f32⟩
  | .hbm, ⟨1, _⟩ => ⟨S8x64x512, .f32⟩
  | .hbm, ⟨2, _⟩ => ⟨S1024x512, .f32⟩
  | .hbm, ⟨3, _⟩ => ⟨S1024, .f32⟩
  | .hbm, ⟨4, _⟩ => ⟨S8x256x1x512, .f32⟩
  | .hbm, ⟨5, _⟩ => ⟨S8x1x64x512, .f32⟩
  | .hbm, ⟨6, _⟩ => ⟨S8x256x64x512, .f32⟩
  | .hbm, ⟨7, _⟩ => ⟨S8x256x64x512, .f32⟩
  | .hbm, ⟨8, _⟩ => ⟨S8x256x64x512, .f32⟩
  | .hbm, ⟨9, _⟩ => ⟨S8x256x64x512, .f32⟩
  | .hbm, ⟨10, _⟩ => ⟨S8x256x64x1024, .f32⟩
  | .hbm, ⟨11, _⟩ => ⟨S1x1x1x1024, .f32⟩
  | .hbm, ⟨12, _⟩ => ⟨S8x256x64x1024, .f32⟩
  | .hbm, ⟨13, _⟩ => ⟨S8x256x64x1024, .f32⟩
  | _, _ => ⟨S8x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  bcast_S8x256x512_S8x256x1x512_0_1_3 : S8x256x512.BroadcastsInDim S8x256x1x512 (![0, 1, 3] : Fin 3 → Fin S8x256x1x512.rank)
  bcast_S8x64x512_S8x1x64x512_0_2_3 : S8x64x512.BroadcastsInDim S8x1x64x512 (![0, 2, 3] : Fin 3 → Fin S8x1x64x512.rank)
  bcast_S8x256x1x512_S8x256x64x512_0_1_2_3 : S8x256x1x512.BroadcastsInDim S8x256x64x512 (![0, 1, 2, 3] : Fin 4 → Fin S8x256x64x512.rank)
  bcast_S8x1x64x512_S8x256x64x512_0_1_2_3 : S8x1x64x512.BroadcastsInDim S8x256x64x512 (![0, 1, 2, 3] : Fin 4 → Fin S8x256x64x512.rank)
  bcast_S1024_S1x1x1x1024_3 : S1024.BroadcastsInDim S1x1x1x1024 (![3] : Fin 1 → Fin S1x1x1x1024.rank)
  bcast_S1x1x1x1024_S8x256x64x1024_0_1_2_3 : S1x1x1x1024.BroadcastsInDim S8x256x64x1024 (![0, 1, 2, 3] : Fin 4 → Fin S8x256x64x1024.rank)
  dot_S8x256x64x512_S1024x512_S8x256x64x1024_3_1_012_0_n_n_wf : DotDims.WF S8x256x64x512 S1024x512 S8x256x64x1024 [3] [1] [0, 1, 2] [0] [] []

variable [Facts₀]

def dot_S8x256x64x512_S1024x512_S8x256x64x1024_3_1_012_0_n_n : DotDims S8x256x64x512 S1024x512 S8x256x64x1024 where
  lhsContracting := [3]
  rhsContracting := [1]
  lhsNonContracting := [0, 1, 2]
  rhsNonContracting := [0]
  lhsBatch := []
  rhsBatch := []
  wf := dot_S8x256x64x512_S1024x512_S8x256x64x1024_3_1_012_0_n_n_wf

class Facts : Prop extends Facts₀ where

variable [Facts]
-- ==== Proof.JoinerSpec.lean ====
/-
  The joiner's logits as one function of the four argument arrays, over the extended reals:

      logits[n, t, u, v] = (∑ c, tanh(enc[n, t, c] + pred[n, u, c]) · W[v, c]) + b[v]

  for batch row n, encoder frame t, predictor frame u and vocabulary entry v; the sum runs over the 512 channels.
  Both programs are shown to end with exactly this array: the order of the factors and the nesting of the sum and the
  bias are those of the text above on both sides, so no law of the extended reals is needed to join them and the
  inputs' finiteness is never used.
-/
import Idealize.ShloMosaic.Lib.ValueIdx
import Idealize.ShloMosaic.PureOps.Ideal

noncomputable section

namespace Cert.Joiner

open Idealize.ShloMosaic Idealize.ShloMosaic.ValueIdx

/-- The logits from the encoder output [8, 256, 512], the predictor output [8, 64, 512], the projection's weight
    [1024, 512] and its bias [1024]. -/
def logits (enc : (⟨3, ![8, 256, 512]⟩ : Shape).Idx → EReal) (pred : (⟨3, ![8, 64, 512]⟩ : Shape).Idx → EReal)
    (W : (⟨2, ![1024, 512]⟩ : Shape).Idx → EReal) (b : (⟨1, ![1024]⟩ : Shape).Idx → EReal) :
    (⟨4, ![8, 256, 64, 1024]⟩ : Shape).Idx → EReal := fun i =>
  (∑ c : Fin 512, Ideal.tanh (enc (ix3 (i 0) (i 1) c) + pred (ix3 (i 0) (i 2) c)) * W (ix2 (i 3) c)) + b (ix1 (i 3))

end Cert.Joiner

end
-- ==== Proof.JoinerLayout.lean ====
/-
  The re-layings inside one block of the joiner, read at an index written by coordinates.

  A block pairs 16 encoder frames with the 64 predictor frames of one batch row. The body lines the two up over a common
  index (t, u, c) — encoder frame t, predictor frame u, channel c — by giving each operand a unit axis and broadcasting
  along it; it then merges (t, u) into one row index r = 64·t + u for the matrix product and splits it again afterwards,
  and it spreads the bias vector over every (t, u). Each lemma reads one of these compositions at a coordinate index:
  nothing is computed, an element is only looked up somewhere else.
-/
import Idealize.ShloMosaic.Lib.ValueLayout
import Idealize.ShloMosaic.Lib.Pipeline.Value

namespace Cert.Joiner

open Idealize.ShloMosaic Idealize.ShloMosaic.ValueIdx

variable {α : Type}

/-- The encoder block with a unit axis in the middle, broadcast over the 64 predictor frames: at (t, u, c) it is the
    encoder frame t at channel c, whatever u. -/
theorem encBcast_apply (x : (⟨3, ![1, 16, 512]⟩ : Shape).Idx → α)
    (h0 : (⟨3, ![1, 16, 512]⟩ : Shape).ShapeCasts ⟨2, ![16, 512]⟩)
    (h1 : (⟨2, ![16, 512]⟩ : Shape).ShapeCasts ⟨3, ![16, 1, 512]⟩)
    (h2 : (⟨3, ![16, 1, 512]⟩ : Shape).Broadcasts ⟨3, ![16, 64, 512]⟩) (t : Fin 16) (u : Fin 64) (c : Fin 512) :
    broadcastTo ⟨3, ![16, 64, 512]⟩ (shapeCast ⟨3, ![16, 1, 512]⟩ (shapeCast ⟨2, ![16, 512]⟩ x h0) h1) h2 (ix3 t u c)
      = x (ix3 (0 : Fin 1) t c) := by
  refine (broadcastTo_apply _ h2 (ix3 t u c) (ix3 t (0 : Fin 1) c) fun ax => ?_).trans ?_
  · match ax with
    | ⟨0, _⟩ => rfl
    | ⟨1, _⟩ => rfl
    | ⟨2, _⟩ => rfl
  · refine (shapeCast_apply _ h1 (ix3 t (0 : Fin 1) c) (ix2 t c) ?_).trans (shapeCast_1ab_ab_apply x h0 t c)
    rw [Shape.rowMajor_val_two, Shape.rowMajor_val_three]
    show t.val * 512 + c.val = (t.val * 1 + 0) * 512 + c.val
    omega

/-- The predictor block with a unit axis in front, broadcast over the 16 encoder frames: at (t, u, c) it is the
    predictor frame u at channel c, whatever t. -/
theorem predBcast_apply (x : (⟨3, ![1, 64, 512]⟩ : Shape).Idx → α)
    (h0 : (⟨3, ![1, 64, 512]⟩ : Shape).ShapeCasts ⟨2, ![64, 512]⟩)
    (h1 : (⟨2, ![64, 512]⟩ : Shape).ShapeCasts ⟨3, ![1, 64, 512]⟩)
    (h2 : (⟨3, ![1, 64, 512]⟩ : Shape).Broadcasts ⟨3, ![16, 64, 512]⟩) (t : Fin 16) (u : Fin 64) (c : Fin 512) :
    broadcastTo ⟨3, ![16, 64, 512]⟩ (shapeCast ⟨3, ![1, 64, 512]⟩ (shapeCast ⟨2, ![64, 512]⟩ x h0) h1) h2 (ix3 t u c)
      = x (ix3 (0 : Fin 1) u c) := by
  rw [shapeCast_shapeCast]
  exact broadcastTo_apply x h2 (ix3 t u c) (ix3 (0 : Fin 1) u c) fun ax =>
    match ax with
    | ⟨0, _⟩ => rfl
    | ⟨1, _⟩ => rfl
    | ⟨2, _⟩ => rfl

/-- (t, u) merged into the row r = 64·t + u: row r, channel c of the merged matrix is the element (t, u, c). -/
theorem mergeRows_apply (x : (⟨3, ![16, 64, 512]⟩ : Shape).Idx → α)
    (h : (⟨3, ![16, 64, 512]⟩ : Shape).ShapeCasts ⟨2, ![1024, 512]⟩) (t : Fin 16) (u : Fin 64) (c : Fin 512)
    (r : Fin 1024) (hr : r.val = t.val * 64 + u.val) :
    shapeCast ⟨2, ![1024, 512]⟩ x h (ix2 r c) = x (ix3 t u c) :=
  shapeCast_apply x h _ _ (by
    rw [Shape.rowMajor_val_three, Shape.rowMajor_val_two]
    show (t.val * 64 + u.val) * 512 + c.val = r.val * 512 + c.val
    rw [hr])

/-- The row r = 64·t + u split back into (t, u): element (t, u, v) is row r, column v of the product matrix. -/
theorem splitRows_apply (x : (⟨2, ![1024, 1024]⟩ : Shape).Idx → α)
    (h : (⟨2, ![1024, 1024]⟩ : Shape).ShapeCasts ⟨3, ![16, 64, 1024]⟩) (t : Fin 16) (u : Fin 64) (v : Fin 1024)
    (r : Fin 1024) (hr : r.val = t.val * 64 + u.val) :
    shapeCast ⟨3, ![16, 64, 1024]⟩ x h (ix3 t u v) = x (ix2 r v) :=
  shapeCast_apply x h _ _ (by
    rw [Shape.rowMajor_val_two, Shape.rowMajor_val_three]
    show r.val * 1024 + v.val = (t.val * 64 + u.val) * 1024 + v.val
    rw [hr])

/-- The bias row spread over every (t, u): at (t, u, v) it is the bias at v. -/
theorem biasBcast_apply (x : (⟨2, ![1, 1024]⟩ : Shape).Idx → α)
    (h0 : (⟨2, ![1, 1024]⟩ : Shape).ShapeCasts ⟨2, ![1, 1024]⟩)
    (h1 : (⟨2, ![1, 1024]⟩ : Shape).ShapeCasts ⟨1, ![1024]⟩)
    (h2 : (⟨1, ![1024]⟩ : Shape).ShapeCasts ⟨3, ![1, 1, 1024]⟩)
    (h3 : (⟨3, ![1, 1, 1024]⟩ : Shape).Broadcasts ⟨3, ![16, 64, 1024]⟩) (t : Fin 16) (u : Fin 64) (v : Fin 1024) :
    broadcastTo ⟨3, ![16, 64, 1024]⟩
        (shapeCast ⟨3, ![1, 1, 1024]⟩ (shapeCast ⟨1, ![1024]⟩ (shapeCast ⟨2, ![1, 1024]⟩ x h0) h1) h2) h3 (ix3 t u v)
      = x (ix2 (0 : Fin 1) v) := by
  rw [shapeCast_self]
  refine (broadcastTo_apply _ h3 (ix3 t u v) (ix3 (0 : Fin 1) (0 : Fin 1) v) fun ax => ?_).trans ?_
  · match ax with
    | ⟨0, _⟩ => rfl
    | ⟨1, _⟩ => rfl
    | ⟨2, _⟩ => rfl
  · refine (shapeCast_apply _ h2 (ix3 (0 : Fin 1) (0 : Fin 1) v) (ix1 v) ?_).trans (shapeCast_1a_a_apply x h1 v)
    rw [Shape.rowMajor_val_one, Shape.rowMajor_val_three]
    show v.val = (0 * 1 + 0) * 1024 + v.val
    omega

end Cert.Joiner
-- ==== Proof.JoinerBody.lean ====
/-
  What one grid step computes, element by element, at the ideal values.

  The body forms, for the 16 encoder frames and the 64 predictor frames of its block, the activations
  tanh(enc[t, c] + pred[u, c]), merges (t, u) into 1024 rows, multiplies the [1024, 512] activation matrix with the
  [512, 1024] weight block into a zero accumulator, splits the rows again and adds the bias. At the ideal values the
  change of the activations' float format is the identity and the product is the plain sum over the channel c, so the
  element (t, u, v) of what the body stores is

      (∑ c, tanh(enc[t, c] + pred[u, c]) · w[c, v]) + bias[v].
-/
import proofs.«137091_j6133213299541_1_alg».proof.Proof.Gen.KernelIdeal.Skeleton
import proofs.«137091_j6133213299541_1_alg».proof.Proof.JoinerLayout
import Idealize.ShloMosaic.Lib.ValueIdx
import Idealize.ShloMosaic.PureOps.Ideal.Laws

noncomputable section

namespace Cert.Joiner

open Cert.KernelIdeal Cert.KernelIdeal.Gen Idealize.ShloMosaic Idealize.ShloMosaic.ValueIdx

/-! ## The block product's operand indices: rows × channels times channels × columns -/

theorem prodLhs_0 (j : S1024x1024.Idx) (q : dot_S1024x512_S512x1024_S1024x1024_1_0_0_1_n_n.contr.Idx) :
    (dot_S1024x512_S512x1024_S1024x1024_1_0_0_1_n_n.lhsIdx j q 0).val = (j 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem prodLhs_1 (j : S1024x1024.Idx) (q : dot_S1024x512_S512x1024_S1024x1024_1_0_0_1_n_n.contr.Idx) :
    (dot_S1024x512_S512x1024_S1024x1024_1_0_0_1_n_n.lhsIdx j q 1).val = (q ⟨0, by decide⟩).val :=
  dot_S1024x512_S512x1024_S1024x1024_1_0_0_1_n_n.lhsIdx_val_of_single rfl j q
theorem prodRhs_0 (j : S1024x1024.Idx) (q : dot_S1024x512_S512x1024_S1024x1024_1_0_0_1_n_n.contr.Idx) :
    (dot_S1024x512_S512x1024_S1024x1024_1_0_0_1_n_n.rhsIdx j q 0).val = (q ⟨0, by decide⟩).val :=
  dot_S1024x512_S512x1024_S1024x1024_1_0_0_1_n_n.rhsIdx_val_of_single rfl j q
theorem prodRhs_1 (j : S1024x1024.Idx) (q : dot_S1024x512_S512x1024_S1024x1024_1_0_0_1_n_n.contr.Idx) :
    (dot_S1024x512_S512x1024_S1024x1024_1_0_0_1_n_n.rhsIdx j q 1).val = (j 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The product into the zero accumulator, at row r and column v, is the sum over the channel c of the left operand at
    (r, c) times the right operand at (c, v). -/
theorem blockProduct_apply (a : FVec Ideal S1024x512 .bf16) (w : FVec Ideal S512x1024 .bf16) (r v : Fin 1024) :
    matmul dot_S1024x512_S512x1024_S1024x1024_1_0_0_1_n_n none a w (constant S1024x1024 .f32 0x00000000#32) (ix2 r v)
      = ∑ c : Fin 512, a (ix2 r c) * w (ix2 c v) := by
  refine (Ideal.matmul_constant_zero_apply dot_S1024x512_S512x1024_S1024x1024_1_0_0_1_n_n none a w (ix2 r v)).trans ?_
  rw [← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 r v) ((contrEquiv1 dot_S1024x512_S512x1024_S1024x1024_1_0_0_1_n_n 512 rfl rfl).symm k) = ix2 r k := funext fun ax => Fin.ext (by
    match ax with
    | ⟨0, _⟩ => exact prodLhs_0 _ _
    | ⟨1, _⟩ => exact (prodLhs_1 _ _).trans hk)
  have er : dot_S1024x512_S512x1024_S1024x1024_1_0_0_1_n_n.rhsIdx (ix2 r v) ((contrEquiv1 dot_S1024x512_S512x1024_S1024x1024_1_0_0_1_n_n 512 rfl rfl).symm k) = ix2 k v := funext fun ax => Fin.ext (by
    match ax with
    | ⟨0, _⟩ => exact (prodRhs_0 _ _).trans hk
    | ⟨1, _⟩ => exact prodRhs_1 _ _)
  rw [el, er]

/-! ## The stored block -/

/-- Element (t, u, v) of the block the body stores, from the four blocks it loads. -/
theorem stored_apply (enc : Vec Ideal S1x16x512 .f32) (pred : Vec Ideal S1x64x512 .f32) (w : Vec Ideal S512x1024 .bf16)
    (bias : Vec Ideal S1x1024 .f32) (z : Fin 1) (t : Fin 16) (u : Fin 64) (v : Fin 1024) :
    k0_pay1 (F := Ideal) enc pred w bias (ix4 z t u v)
      = (∑ c : Fin 512, Ideal.tanh (enc (ix3 (0 : Fin 1) t c) + pred (ix3 (0 : Fin 1) u c)) * w (ix2 c v))
        + bias (ix2 (0 : Fin 1) v) := by
  unfold k0_pay1
  refine (shapeCast_abc_1abc_apply _ shapeCasts_S16x64x1024_S1x16x64x1024 z t u v).trans ?_
  refine (addf_apply _ _ _).trans (congrArg₂ (· + ·) ?_ ?_)
  · refine (splitRows_apply _ shapeCasts_S1024x1024_S16x64x1024 t u v ⟨t.val * 64 + u.val, by omega⟩ rfl).trans ?_
    refine (blockProduct_apply _ _ _ v).trans (Finset.sum_congr rfl fun c _ => congrArg₂ (· * ·) ?_ ?_)
    · refine (mergeRows_apply _ shapeCasts_S16x64x512_S1024x512 t u c ⟨t.val * 64 + u.val, by omega⟩ rfl).trans ?_
      show Ideal.tanh (_ + _) = _
      rw [encBcast_apply, predBcast_apply]
    · exact congrFun (shapeCast_self w shapeCasts_S512x1024_S512x1024) (ix2 c v)
  · exact biasBcast_apply bias _ _ _ _ t u v

end Cert.Joiner

end
-- ==== Proof.JoinerHost.lean ====
/-
  What the two host-made operands of the kernel hold when the region is entered, at the ideal values.

  Before the kernel runs, the weight W [1024, 512] is transposed to [512, 1024] and its float format changed (the
  identity at the ideal values), and the bias [1024] is given a leading unit axis. So the weight block the kernel stages
  holds W[v, c] at (c, v), and the bias row holds b[v] at (0, v).
-/
import proofs.«137091_j6133213299541_1_alg».proof.Proof.Gen.KernelIdeal.Frame
import Idealize.ShloMosaic.Lib.StableHlo.Run
import Idealize.ShloMosaic.Lib.ValueLayout

noncomputable section

namespace Cert.Joiner

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The staged weight operand is the transposed weight. -/
theorem weightOperand_eq (c : Dev nD) :
    @Eq (S512x1024.Idx → EReal) (V m c main_v1)
      (truncf (F := Ideal) .bf16
        (transpose S512x1024 [1, 0] (m ((c : Thread nD τ).loc main_arg2)) transposes_S1024x512_S512x1024_1_0)
        bitsLt_bf16_f32) := by
  dsimp only [V, hostOps0]; after_results

/-- At (c, v) it holds W[v, c]. -/
theorem weightOperand_apply (c : Dev nD) (k : Fin 512) (v : Fin 1024) :
    (V m c main_v1 : S512x1024.Idx → EReal) (ix2 k v) = m ((c : Thread nD τ).loc main_arg2) (ix2 v k) := by
  rw [weightOperand_eq]
  exact transpose_ix2_apply _ transposes_S1024x512_S512x1024_1_0 k v

/-- The staged bias operand is the bias as one row. -/
theorem biasOperand_eq (c : Dev nD) :
    @Eq (S1x1024.Idx → EReal) (V m c main_v2)
      (shapeCast S1x1024 (m ((c : Thread nD τ).loc main_arg3)) shapeCasts_S1024_S1x1024) := by
  dsimp only [V, hostOps0]; after_results; rfl

/-- At (0, v) it holds b[v]. -/
theorem biasOperand_apply (c : Dev nD) (v : Fin 1024) :
    (V m c main_v2 : S1x1024.Idx → EReal) (ix2 (0 : Fin 1) v) = m ((c : Thread nD τ).loc main_arg3) (ix1 v) := by
  rw [biasOperand_eq]
  exact shapeCast_a_1a_apply _ shapeCasts_S1024_S1x1024 0 v

end Cert.Joiner

end
-- ==== Proof.JoinerBlocks.lean ====
/-
  From the grid's blocks to the whole result array, at the ideal values.

  The grid has 8 × 16 points; point number 16·n + s works on batch row n and on the encoder frames 16·s … 16·s + 15.
  Its output block is the slab [n, 16·s + t, u, v] (t < 16, every u and v); it reads the encoder block [n, 16·s + t, c],
  the whole predictor slab [n, u, c] of its batch row, and the whole transposed weight and bias row. With the body's
  element formula this says that each point writes back exactly its slab of the specification's logits, and since
  every index (n, t', u, v) lies in the slab of the point 16·n + t'/16, the result array ends as the logits.
-/
import proofs.«137091_j6133213299541_1_alg».proof.Proof.Gen.KernelIdeal.Value
import proofs.«137091_j6133213299541_1_alg».proof.Proof.JoinerSpec
import proofs.«137091_j6133213299541_1_alg».proof.Proof.JoinerBody
import proofs.«137091_j6133213299541_1_alg».proof.Proof.JoinerHost

set_option maxRecDepth 16384

noncomputable section

namespace Cert.Joiner

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The logits of the four argument arrays as launched on core `c`. -/
abbrev result (c : Dev nD) : S8x256x64x1024.Idx → EReal :=
  logits (m ((c : Thread nD τ).loc main_arg0)) (m ((c : Thread nD τ).loc main_arg1)) (m ((c : Thread nD τ).loc main_arg2))
    (m ((c : Thread nD τ).loc main_arg3))

theorem zero4 : (![0, 0, 0, 0] : Fin 4 → Nat) = fun _ => 0 := funext fun a => by fin_cases a <;> rfl
theorem zero3 : (![0, 0, 0] : Fin 3 → Nat) = fun _ => 0 := funext fun a => by fin_cases a <;> rfl
theorem zero2 : (![0, 0] : Fin 2 → Nat) = fun _ => 0 := funext fun a => by fin_cases a <;> rfl

/-- Where each window's block sits at point `t`, decided over the 128 points: the output and the encoder window at
    (t / 16, t % 16), the predictor window at batch row t / 16, the weight and the bias whole. -/
theorem blockIndex : ∀ t : Fin cfg0.N,
    win0_4.index t (0 : Fin 4) = t.val / 16 ∧ win0_4.index t (1 : Fin 4) = t.val % 16
    ∧ win0_4.index t (2 : Fin 4) = 0 ∧ win0_4.index t (3 : Fin 4) = 0
    ∧ win0_0.index t (0 : Fin 3) = t.val / 16 ∧ win0_0.index t (1 : Fin 3) = t.val % 16 ∧ win0_0.index t (2 : Fin 3) = 0
    ∧ win0_1.index t (0 : Fin 3) = t.val / 16 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-! ## The input blocks at a point, read off the arguments -/

/-- The encoder block at point `t`: frame `s` of the block is frame 16·(t % 16) + s of batch row t / 16. -/
theorem encBlock_apply (c : Dev nD) (t : Fin cfg0.N) (s : Fin 16) (k : Fin 512) (n : Fin 8) (f : Fin 256)
    (hn : n.val = t.val / 16) (hf : f.val = t.val % 16 * 16 + s.val) :
    (iblk m c 0 t : S1x16x512.Idx → EReal) (ix3 (0 : Fin 1) s k) = m ((c : Thread nD τ).loc main_arg0) (ix3 n f k) := by
  obtain ⟨-, -, -, -, e0, e1, e2, -⟩ := blockIndex t
  show V m c main_arg0 (((cfg0.win 0).blk t).view.emb (ix3 (0 : Fin 1) s k)) = _
  rw [V_main_arg0]
  refine congrArg _ (funext fun a => Fin.ext ?_)
  match a with
  | ⟨0, _⟩ => show win0_0.index t (0 : Fin 3) * 1 + 1 * 0 = n.val; omega
  | ⟨1, _⟩ => show win0_0.index t (1 : Fin 3) * 16 + 1 * s.val = f.val; omega
  | ⟨2, _⟩ => show win0_0.index t (2 : Fin 3) * 512 + 1 * k.val = k.val; omega

/-- The predictor block at point `t`: the whole slab of batch row t / 16. -/
theorem predBlock_apply (c : Dev nD) (t : Fin cfg0.N) (u : Fin 64) (k : Fin 512) (n : Fin 8) (hn : n.val = t.val / 16) :
    (iblk m c 1 t : S1x64x512.Idx → EReal) (ix3 (0 : Fin 1) u k) = m ((c : Thread nD τ).loc main_arg1) (ix3 n u k) := by
  obtain ⟨-, -, -, -, -, -, -, e0, e1, e2, -⟩ := blockIndex t
  show V m c main_arg1 (((cfg0.win 1).blk t).view.emb (ix3 (0 : Fin 1) u k)) = _
  rw [V_main_arg1]
  refine congrArg _ (funext fun a => Fin.ext ?_)
  match a with
  | ⟨0, _⟩ => show win0_1.index t (0 : Fin 3) * 1 + 1 * 0 = n.val; omega
  | ⟨1, _⟩ => show win0_1.index t (1 : Fin 3) * 64 + 1 * u.val = u.val; omega
  | ⟨2, _⟩ => show win0_1.index t (2 : Fin 3) * 512 + 1 * k.val = k.val; omega

/-- The weight block at every point is the whole transposed weight: W[v, k] at (k, v). -/
theorem weightBlock_apply (c : Dev nD) (t : Fin cfg0.N) (k : Fin 512) (v : Fin 1024) :
    (iblk m c 2 t : S512x1024.Idx → EReal) (ix2 k v) = m ((c : Thread nD τ).loc main_arg2) (ix2 v k) := by
  obtain ⟨-, -, -, -, -, -, -, -, -, -, e0, e1, -⟩ := blockIndex t
  refine Eq.trans ?_ (weightOperand_apply m c k v)
  show V m c main_v1 (((cfg0.win 2).blk t).view.emb (ix2 k v)) = V m c main_v1 (ix2 k v)
  refine congrArg _ (funext fun a => Fin.ext ?_)
  match a with
  | ⟨0, _⟩ => show win0_2.index t (0 : Fin 2) * 512 + 1 * k.val = k.val; omega
  | ⟨1, _⟩ => show win0_2.index t (1 : Fin 2) * 1024 + 1 * v.val = v.val; omega

/-- The bias block at every point is the whole bias row. -/
theorem biasBlock_apply (c : Dev nD) (t : Fin cfg0.N) (v : Fin 1024) :
    (iblk m c 3 t : S1x1024.Idx → EReal) (ix2 (0 : Fin 1) v) = m ((c : Thread nD τ).loc main_arg3) (ix1 v) := by
  obtain ⟨-, -, -, -, -, -, -, -, -, -, -, -, e0, e1⟩ := blockIndex t
  refine Eq.trans ?_ (biasOperand_apply m c v)
  show V m c main_v2 (((cfg0.win 3).blk t).view.emb (ix2 (0 : Fin 1) v)) = V m c main_v2 (ix2 (0 : Fin 1) v)
  refine congrArg _ (funext fun a => Fin.ext ?_)
  match a with
  | ⟨0, _⟩ => show win0_3.index t (0 : Fin 2) * 1 + 1 * 0 = 0; omega
  | ⟨1, _⟩ => show win0_3.index t (1 : Fin 2) * 1024 + 1 * v.val = v.val; omega

/-! ## What a point writes back -/

/-- Point `t` writes back its slab of the logits. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero zero4]
  simp only [View.ld_unit_zero (S := S1x16x512) zero3, View.ld_unit_zero (S := S1x64x512) zero3,
    View.ld_unit_zero (S := S512x1024) zero2, View.ld_unit_zero (S := S1x1024) zero2]
  obtain ⟨e0, e1, e2, e3, -⟩ := blockIndex t
  have ht : t.val < 128 := Nat.lt_of_lt_of_eq t.isLt N_0
  funext j
  have hj1 : (j 1).val < 16 := (j 1).isLt
  show k0_pay1 (F := Ideal) (iblk m c 0 t) (iblk m c 1 t) (iblk m c 2 t) (iblk m c 3 t) j
    = result m c (((cfg0.win 4).blk t).view.emb j)
  refine (congrArg (k0_pay1 (F := Ideal) (iblk m c 0 t) (iblk m c 1 t) (iblk m c 2 t) (iblk m c 3 t)) (eq_ix4 j)).trans ?_
  refine (stored_apply (iblk m c 0 t) (iblk m c 1 t) (iblk m c 2 t) (iblk m c 3 t) (j 0) (j 1) (j 2) (j 3)).trans ?_
  have i0 : ((((cfg0.win 4).blk t).view.emb j) 0).val = t.val / 16 := by
    show win0_4.index t (0 : Fin 4) * 1 + 1 * (j 0).val = _
    have hj0 : (j 0).val < 1 := (j 0).isLt
    omega
  have i1 : ((((cfg0.win 4).blk t).view.emb j) 1).val = t.val % 16 * 16 + (j 1).val := by
    show win0_4.index t (1 : Fin 4) * 16 + 1 * (j 1).val = _
    omega
  have i2 : (((cfg0.win 4).blk t).view.emb j) 2 = j 2 := Fin.ext (by
    show win0_4.index t (2 : Fin 4) * 64 + 1 * (j 2).val = (j 2).val
    omega)
  have i3 : (((cfg0.win 4).blk t).view.emb j) 3 = j 3 := Fin.ext (by
    show win0_4.index t (3 : Fin 4) * 1024 + 1 * (j 3).val = (j 3).val
    omega)
  show _ = logits _ _ _ _ _
  unfold logits
  rw [i2, i3]
  refine congrArg₂ (· + ·) (Finset.sum_congr rfl fun k _ => congrArg₂ (· * ·)
    (congrArg Ideal.tanh (congrArg₂ (· + ·) ?_ ?_)) ?_) ?_
  · exact encBlock_apply m c t (j 1) k _ _ i0 i1
  · exact predBlock_apply m c t (j 2) k _ i0
  · exact weightBlock_apply m c t k (j 3)
  · exact biasBlock_apply m c t (j 3)

/-! ## The slabs fill the array -/

/-- An index is in point `t`'s slab iff each coordinate is in the slab's range on its axis. -/
theorem mem_slab (t : Fin cfg0.N) (i : S8x256x64x1024.Idx) :
    i ∈ ((cfg0.win 4).blk t).view.set ↔ ∀ a : Fin 4, win0_4.index t a * S1x16x64x1024.size a ≤ (i a).val
      ∧ (i a).val < win0_4.index t a * S1x16x64x1024.size a + S1x16x64x1024.size a := by
  show i ∈ ((View.whole main_v3).slice (win0_4.rect t)).set ↔ _
  rw [View.set_slice_whole, Rect.mem_set_unit]
  exact Iff.rfl

/-- Every index (n, f, u, v) is in the slab of the point 16·n + f / 16, which writes back. -/
theorem covered (i : S8x256x64x1024.Idx) :
    ∃ t : Fin cfg0.N, (cfg0.win 4).flush t = true ∧ i ∈ ((cfg0.win 4).blk t).view.set := by
  have h0 : (i 0).val < 8 := (i 0).isLt
  have h1 : (i 1).val < 256 := (i 1).isLt
  have h2 : (i 2).val < 64 := (i 2).isLt
  have h3 : (i 3).val < 1024 := (i 3).isLt
  have hN : (i 0).val * 16 + (i 1).val / 16 < cfg0.N := by rw [show cfg0.N = 128 from N_0]; omega
  obtain ⟨e0, e1, e2, e3, -⟩ := blockIndex ⟨(i 0).val * 16 + (i 1).val / 16, hN⟩
  refine ⟨⟨(i 0).val * 16 + (i 1).val / 16, hN⟩, flush0_4 _, ?_⟩
  rw [mem_slab]
  intro a
  match a with
  | ⟨0, _⟩ =>
    show win0_4.index ⟨(i 0).val * 16 + (i 1).val / 16, hN⟩ (0 : Fin 4) * 1 ≤ (i 0).val
      ∧ (i 0).val < win0_4.index ⟨(i 0).val * 16 + (i 1).val / 16, hN⟩ (0 : Fin 4) * 1 + 1
    rw [e0]; show ((i 0).val * 16 + (i 1).val / 16) / 16 * 1 ≤ _ ∧ _ < ((i 0).val * 16 + (i 1).val / 16) / 16 * 1 + 1; omega
  | ⟨1, _⟩ =>
    show win0_4.index ⟨(i 0).val * 16 + (i 1).val / 16, hN⟩ (1 : Fin 4) * 16 ≤ (i 1).val
      ∧ (i 1).val < win0_4.index ⟨(i 0).val * 16 + (i 1).val / 16, hN⟩ (1 : Fin 4) * 16 + 16
    rw [e1]; show ((i 0).val * 16 + (i 1).val / 16) % 16 * 16 ≤ _ ∧ _ < ((i 0).val * 16 + (i 1).val / 16) % 16 * 16 + 16; omega
  | ⟨2, _⟩ =>
    show win0_4.index ⟨(i 0).val * 16 + (i 1).val / 16, hN⟩ (2 : Fin 4) * 64 ≤ (i 2).val
      ∧ (i 2).val < win0_4.index ⟨(i 0).val * 16 + (i 1).val / 16, hN⟩ (2 : Fin 4) * 64 + 64
    rw [e2]; omega
  | ⟨3, _⟩ =>
    show win0_4.index ⟨(i 0).val * 16 + (i 1).val / 16, hN⟩ (3 : Fin 4) * 1024 ≤ (i 3).val
      ∧ (i 3).val < win0_4.index ⟨(i 0).val * 16 + (i 1).val / 16, hN⟩ (3 : Fin 4) * 1024 + 1024
    rw [e3]; omega

/-- The result array after the run is the logits of the arguments. -/
theorem final (c : Dev nD) : (dats m 0 c).arrAt 4 cfg0.N = result m c :=
  (dats m 0 c).arrAt_eq_of_cover 4 (result m c) (fun t _ => flushed_eq m c t) covered

/-- Every weakly fair execution of the kernel's program ends with the result array at the logits of the arguments and
    the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.Joiner

end
-- ==== Proof.JoinerRef.lean ====
/-
  The reference computes the logits of the specification.

  The reference broadcasts the encoder output over the predictor frames and the predictor output over the encoder
  frames, adds, applies tanh, contracts the channel axis against the weight's channel axis and adds the bias broadcast
  over (n, t, u). Read one operation at a time at an index (n, t, u, v), every broadcast only looks an element up, the
  contraction is the sum over the channel, and what is left is the specification's formula word for word.
-/
import proofs.«137091_j6133213299541_1_alg».proof.Proof.Gen.ReferenceIdeal.Read
import proofs.«137091_j6133213299541_1_alg».proof.Proof.JoinerSpec

noncomputable section

namespace Cert.Joiner

open Cert.ReferenceIdeal Cert.ReferenceIdeal.Read Idealize.ShloMosaic Idealize.ShloMosaic.ValueIdx

/-- The reference's last stage is the specification's logits of the same four arrays. -/
theorem reference_eq (enc : S8x256x512.Idx → EReal) (pred : S8x64x512.Idx → EReal) (W : S1024x512.Idx → EReal)
    (b : S1024.Idx → EReal) : val_main_v9 (F := Ideal) enc pred W b = logits enc pred W b := by
  funext i
  have eEnc : ∀ k : Fin 512, idx_main_v0 (idx_main_v2 (lidx_main_v6 i k)) = ix3 (i 0) (i 1) k := fun k =>
    funext fun a => Fin.ext (by match a with | ⟨0, _⟩ => rfl | ⟨1, _⟩ => rfl | ⟨2, _⟩ => rfl)
  have ePred : ∀ k : Fin 512, idx_main_v1 (idx_main_v3 (lidx_main_v6 i k)) = ix3 (i 0) (i 2) k := fun k =>
    funext fun a => Fin.ext (by match a with | ⟨0, _⟩ => rfl | ⟨1, _⟩ => rfl | ⟨2, _⟩ => rfl)
  have eW : ∀ k : Fin 512, ridx_main_v6 i k = ix2 (i 3) k := fun k =>
    funext fun a => Fin.ext (by match a with | ⟨0, _⟩ => rfl | ⟨1, _⟩ => rfl)
  have eB : idx_main_v7 (idx_main_v8 i) = ix1 (i 3) :=
    funext fun a => Fin.ext (by match a with | ⟨0, _⟩ => rfl)
  rw [val_main_v9_apply, val_main_v6_apply, val_main_v8_apply, val_main_v7_apply, eB]
  unfold logits
  refine congrArg₂ (· + ·) (Finset.sum_congr rfl fun k _ => congrArg₂ (· * ·) ?_ (congrArg W (eW k))) rfl
  rw [val_main_v5_apply, val_main_v4_apply, val_main_v2_apply, val_main_v0_apply, val_main_v3_apply, val_main_v1_apply,
    eEnc, ePred]
  rfl

end Cert.Joiner

end
-- ==== Proof.lean ====
/-
  The transducer joiner: a fused kernel against its plain reference, over the extended reals.

  Both programs compute, for batch row n, encoder frame t, predictor frame u and vocabulary entry v,

      logits[n, t, u, v] = (∑ c, tanh(enc[n, t, c] + pred[n, u, c]) · W[v, c]) + b[v].

  The kernel walks a grid of 8 × 16 points; a point takes 16 encoder frames and the 64 predictor frames of one batch
  row, forms the activations, multiplies the [1024, 512] activation matrix with the transposed weight into a zero
  accumulator and adds the bias. At the ideal values the change of float format before the product is the identity and
  the product is the plain sum over the channel, so each point writes back its slab of the logits and the slabs fill
  the result array. The reference broadcasts, adds, applies tanh, contracts the channel axis and adds the bias: read at
  an index it is the same formula, with the factors and the sum in the same order. The two sides agree term by term,
  so the inputs' finiteness is not used. The idealization rewrote no operation, so there is nothing to preserve.

  The three runs: the kernel's two programs run by their frame certificates; the reference is a straight line of host
  operations, and its run with the result dropped is its frame.
-/
import proofs.«137091_j6133213299541_1_alg».proof.Defs
import proofs.«137091_j6133213299541_1_alg».proof.Proof.Gen.Kernel
import proofs.«137091_j6133213299541_1_alg».proof.Proof.Gen.Kernel.Skeleton
import proofs.«137091_j6133213299541_1_alg».proof.Proof.Gen.Kernel.Launch
import proofs.«137091_j6133213299541_1_alg».proof.Proof.Gen.Kernel.Points
import proofs.«137091_j6133213299541_1_alg».proof.Proof.Gen.Kernel.Frame
import proofs.«137091_j6133213299541_1_alg».proof.Proof.Gen.KernelIdeal
import proofs.«137091_j6133213299541_1_alg».proof.Proof.Gen.KernelIdeal.Skeleton
import proofs.«137091_j6133213299541_1_alg».proof.Proof.Gen.KernelIdeal.Launch
import proofs.«137091_j6133213299541_1_alg».proof.Proof.Gen.KernelIdeal.Points
import proofs.«137091_j6133213299541_1_alg».proof.Proof.Gen.KernelIdeal.Frame
import proofs.«137091_j6133213299541_1_alg».proof.Proof.Gen.ReferenceIdeal
import proofs.«137091_j6133213299541_1_alg».proof.Proof.Gen.Pre_finite_inputs
import proofs.«137091_j6133213299541_1_alg».proof.Proof.Gen.KernelIdeal.Value
import proofs.«137091_j6133213299541_1_alg».proof.Proof.Gen.ReferenceIdeal.Run
import proofs.«137091_j6133213299541_1_alg».proof.Proof.Gen.ReferenceIdeal.Read
import proofs.«137091_j6133213299541_1_alg».proof.Proof.JoinerBlocks
import proofs.«137091_j6133213299541_1_alg».proof.Proof.JoinerRef
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- From arguments that agree, the kernel's result array and the reference's both end as the logits of those
    arguments. -/
theorem algebraic : Cert.algebraic_KernelIdeal_ReferenceIdeal := by
  intro m ρ m' ρ' _ hagree
  refine ⟨fun c => Cert.Joiner.result m c, Cert.Joiner.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.Joiner.reference_eq, (hagree c).1, (hagree c).2.1,
    (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
